-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1 : Shape := ⟨2, ![1, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S1x1 .f32) (main_arg8 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1x1 .f32 := Host.absf main_arg7
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x32 .f32) (main_arg6 : FVec F S32 .f32) (main_arg7 : FVec F S1x1 .f32) (main_arg8 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1 : Shape := ⟨2, ![1, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S2000x64 : Shape := ⟨2, ![2000, 64]⟩
abbrev S1x32 : Shape := ⟨2, ![1, 32]⟩
abbrev S2000x1 : Shape := ⟨2, ![2000, 1]⟩
abbrev S2000x32 : Shape := ⟨2, ![2000, 32]⟩
abbrev S2000 : Shape := ⟨1, ![2000]⟩

abbrev nBuf : Space → Nat
  | .hbm => 54
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x1, .f32⟩
  | .hbm, ⟨8, _⟩ => ⟨S1, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S_, .f32⟩
  | .hbm, ⟨29, _⟩ => ⟨S100000x64, .f32⟩
  | .hbm, ⟨30, _⟩ => ⟨S1600000x1, .i32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S1x32, .f32⟩
  | .hbm, ⟨52, _⟩ => ⟨S1x1, .f32⟩
  | .hbm, ⟨53, _⟩ => ⟨S100000x1, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S64x32, .f32⟩
  | .local _ .vmem, ⟨9, _⟩ => ⟨S1x32, .f32⟩
  | .local _ .vmem, ⟨10, _⟩ => ⟨S1x1, .f32⟩
  | .local _ .vmem, ⟨11, _⟩ => ⟨S1x1, .f32⟩
  | .local _ .vmem, ⟨12, _⟩ => ⟨S2000x1, .f32⟩
  | .local _ .vmem, ⟨13, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  broadcasts_S1x1_S2000x1 : S1x1.Broadcasts S2000x1
  shapeCasts_S1x1_S1x1 : S1x1.ShapeCasts S1x1
  inb_S2000x1_S2000x1_0_0 : ∀ a, (![0, 0] : Fin 2 → Nat) a + S2000x1.size a ≤ S2000x1.size a
  h_S2000x1 : 0 < S2000x1.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S100000x1.size a
  hwx1_5 : ∀ i : grid1.Coords, EltTy.bits .f32 = 32 ∨ (Rect.block (s := S100000x1) S2000x1.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1 : Shape := ⟨2, ![1, 1]⟩
abbrev S1 : Shape := ⟨1, ![1]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x1, .f32⟩
  | .hbm, ⟨8, _⟩ => ⟨S1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x64, .f32⟩
  | .hbm, ⟨65, _⟩ => ⟨S100000x64, .f32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S100000x32, .f32⟩
  | .hbm, ⟨70, _⟩ => ⟨S_, .f32⟩
  | .hbm, ⟨71, _⟩ => ⟨S100000x32, .f32⟩
  | .hbm, ⟨72, _⟩ => ⟨S100000x32, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x1, .f32⟩
  | .hbm, ⟨80, _⟩ => ⟨S1x1, .f32⟩
  | .hbm, ⟨81, _⟩ => ⟨S100000x1, .f32⟩
  | .hbm, ⟨82, _⟩ => ⟨S100000x1, .f32⟩
  | .hbm, ⟨83, _⟩ => ⟨S100000x1, .f32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S_, .f32⟩
  | .hbm, ⟨89, _⟩ => ⟨S100000x1, .f32⟩
  | .hbm, ⟨90, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_12 : Ref sig .tc := ⟨.hbm, 85, rfl⟩
abbrev main_v58 : Ref sig .tc := ⟨.hbm, 86, rfl⟩
abbrev main_v59 : Ref sig .tc := ⟨.hbm, 87, rfl⟩
abbrev main_cst_13 : Ref sig .tc := ⟨.hbm, 88, rfl⟩
abbrev main_v60 : Ref sig .tc := ⟨.hbm, 89, rfl⟩
abbrev main_v61 : Ref sig .tc := ⟨.hbm, 90, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  h_S_ : 0 < S_.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x1_S1x1_S100000x1_1_0_0_1_n_n_wf : DotDims.WF S100000x1 S1x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x1_S1x1_S100000x1_1_0_0_1_n_n : DotDims S100000x1 S1x1 S100000x1 where
  lhsContracting := [1]
  rhsContracting := [0]
  lhsNonContracting := [0]
  rhsNonContracting := [1]
  lhsBatch := []
  rhsBatch := []
  wf := dot_S100000x1_S1x1_S100000x1_1_0_0_1_n_n_wf

class Facts : Prop extends Facts₀ where

variable [Facts]
-- ==== Proof.Spec.lean ====
/-
  The two dense layers of the link-prediction network, as functions of whole arrays over the extended reals.

  A graph-convolution layer first averages, for every node, the feature rows of the nodes that send it an edge (that
  aggregation is common to both programs and is carried as a parameter here), then applies a dense map with a bias
  and a ReLU. `layer1` is the first dense map: row p, column q of `max (a · W + b) 0`. The second layer's 32 hidden
  columns are never stored: each row is averaged over them, passed through a 1 × 1 dense map `· wd + bd`, and
  squashed by the logistic function; `out2` is that column vector.

  The ReLU's zero and the divisor 32 are kept as the words both programs print; nothing here evaluates them.
-/
import Idealize.ShloMosaic.PureOps.Ideal
import Idealize.ShloMosaic.Lib.ValueIdx

noncomputable section

namespace Cert.Spec

open Idealize.ShloMosaic Idealize.ShloMosaic.ValueIdx

abbrev SNx64 : Shape := ⟨2, ![100000, 64]⟩
abbrev SNx1 : Shape := ⟨2, ![100000, 1]⟩
abbrev SW1 : Shape := ⟨2, ![64, 64]⟩
abbrev SW2 : Shape := ⟨2, ![64, 32]⟩

/-- Entry (p, q) of the first layer: `max (∑ₖ a[p, k] · W[k, q] + b[q]) 0`. -/
def hidden1 (a : SNx64.Idx → EReal) (W : SW1.Idx → EReal) (b : Fin 64 → EReal) (p : Fin 100000) (q : Fin 64) : EReal :=
  max ((∑ k : Fin 64, a (ix2 p k) * W (ix2 k q)) + b q) (Ideal.ofBits .f32 0x00000000#32)

/-- The first layer's output array. -/
def layer1 (a : SNx64.Idx → EReal) (W : SW1.Idx → EReal) (b : Fin 64 → EReal) : SNx64.Idx → EReal :=
  fun i => hidden1 a W b (i 0) (i 1)

/-- Entry (p, k) of the second layer's hidden activations: `max (∑ⱼ a[p, j] · W[j, k] + b[k]) 0`. -/
def hidden2 (a : SNx64.Idx → EReal) (W : SW2.Idx → EReal) (b : Fin 32 → EReal) (p : Fin 100000) (k : Fin 32) : EReal :=
  max ((∑ j : Fin 64, a (ix2 p j) * W (ix2 j k)) + b k) (Ideal.ofBits .f32 0x00000000#32)

/-- Node p's score: the logistic of `mean over k of hidden2[p, k]` times `wd` plus `bd`, the mean taken as the sum
    divided by the printed word for 32. -/
def score (a : SNx64.Idx → EReal) (W : SW2.Idx → EReal) (b : Fin 32 → EReal) (wd bd : EReal) (p : Fin 100000) : EReal :=
  Ideal.logistic (Ideal.div (∑ k : Fin 32, hidden2 a W b p k) (Ideal.ofBits .f32 0x42000000#32) * wd + bd)

/-- The result array, one score per node. -/
def out2 (a : SNx64.Idx → EReal) (W : SW2.Idx → EReal) (b : Fin 32 → EReal) (wd bd : EReal) : SNx1.Idx → EReal :=
  fun i => score a W b wd bd (i 0)

end Cert.Spec

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Region0.lean ====
/-
  The first pallas_call, read as a whole array: after its 50 grid points the output array is `layer1` of the three
  arrays the region found at its entry. Point t loads rows 2000·t … 2000·t + 1999 of the left operand and the whole
  weight and bias, and stores `max (x · W + b) 0` for those rows; the 50 row blocks tile the 100000 rows.
-/
import proofs.«149629_j18442589569957_1_alg».proof.Proof.Gen.KernelIdeal.Frame
import proofs.«149629_j18442589569957_1_alg».proof.Proof.Spec
import proofs.«149629_j18442589569957_1_alg».proof.Proof.LibMatmulAt
import Idealize.ShloMosaic.Lib.Pipeline.Value
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## Where the product's dimension numbers read their operands -/

/-- The left operand is read at the result's row … -/
theorem lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … and the contracted coordinate; -/
theorem lhs_contr (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right operand at the contracted coordinate … -/
theorem rhs_contr (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … and the result's column. -/
theorem rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-! ## The body's value at one entry of its block -/

/-- The product of a 2000 × 64 block and the 64 × 64 weight into a zero accumulator, at entry (p, q). -/
theorem product_at (l : FVec Ideal S2000x64 .bf16) (r : FVec Ideal S64x64 .bf16) (p : Fin 2000) (q : Fin 64) :
    matmul (F := Ideal) dot_S2000x64_S64x64_S2000x64_1_0_0_1_n_n none l r (constant (F := Ideal) S2000x64 .f32 0x00000000#32) (ix2 p q)
      = ∑ k : Fin 64, l (ix2 p k) * r (ix2 k q) :=
  MatmulAt.matmul_zero_at dot_S2000x64_S64x64_S2000x64_1_0_0_1_n_n rfl rfl lhs_row lhs_contr rhs_contr rhs_col none l r p q

/-- The bias row broadcast down the block's rows, at entry (p, q), is the bias at q. -/
theorem bias_at (b : Vec Ideal S1x64 .f32) (p : Fin 2000) (q : Fin 64) :
    broadcastTo S2000x64 b broadcasts_S1x64_S2000x64 (ix2 p q) = b (ix2 (0 : Fin 1) q) :=
  broadcastTo_apply b broadcasts_S1x64_S2000x64 (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else q.val; rw [if_neg (by decide)])

/-- Entry (p, q) of what the body stores: `max (∑ₖ x[p, k] · W[k, q] + b[q]) 0`. -/
theorem body_at (x0 : Vec Ideal S2000x64 .f32) (x1 : Vec Ideal S64x64 .f32) (x2 : Vec Ideal S1x64 .f32) (p : Fin 2000) (q : Fin 64) :
    k0_pay1 x0 x1 x2 (ix2 p q)
      = max ((∑ k : Fin 64, x0 (ix2 p k) * x1 (ix2 k q)) + x2 (ix2 (0 : Fin 1) q)) (Ideal.ofBits .f32 0x00000000#32) := by
  unfold k0_pay1
  rw [shapeCast_self, shapeCast_self]
  show max (matmul (F := Ideal) dot_S2000x64_S64x64_S2000x64_1_0_0_1_n_n none (truncf .bf16 x0 bitsLt_bf16_f32) (truncf .bf16 x1 bitsLt_bf16_f32) (constant (F := Ideal) S2000x64 .f32 0x00000000#32) (ix2 p q)
      + broadcastTo S2000x64 x2 broadcasts_S1x64_S2000x64 (ix2 p q)) (Ideal.ofBits .f32 0x00000000#32) = _
  rw [product_at, bias_at]
  rfl

/-! ## What one grid point writes back -/

theorem zero_offsets : (![0, 0] : Fin 2 → Nat) = fun _ => 0 :=
  funext fun a => match a with | ⟨0, _⟩ => rfl | ⟨1, _⟩ => rfl

/-- The printed index maps over the 50 grid points: the left operand's window and the output's sit at block (t, 0),
    the weight's and the bias's at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of the body's result is the layer's entry at row r, column s of the arrays, when the block of the left
    operand reads row r there (`h0`), the weight block reads column s (`h1`) and the bias block reads entry s (`h2`). -/
theorem entry_eq (A : S100000x64.Idx → EReal) (W : S64x64.Idx → EReal) (B : S1x64.Idx → EReal)
    (x0 : Vec Ideal S2000x64 .f32) (x1 : Vec Ideal S64x64 .f32) (x2 : Vec Ideal S1x64 .f32)
    (p : Fin 2000) (q : Fin 64) (r : Fin 100000) (s : Fin 64)
    (h0 : ∀ k : Fin 64, x0 (ix2 p k) = A (ix2 r k))
    (h1 : ∀ k : Fin 64, x1 (ix2 k q) = W (ix2 k s))
    (h2 : x2 (ix2 (0 : Fin 1) q) = B (ix2 (0 : Fin 1) s)) :
    k0_pay1 x0 x1 x2 (ix2 p q) = Cert.Spec.layer1 A W (fun q => B (ix2 (0 : Fin 1) q)) (ix2 r s) := by
  refine (body_at x0 x1 x2 p q).trans ?_
  have hs : (∑ k : Fin 64, x0 (ix2 p k) * x1 (ix2 k q)) = ∑ k : Fin 64, A (ix2 r k) * W (ix2 k s) :=
    Finset.sum_congr rfl fun k _ => by rw [h0 k, h1 k]
  rw [hs, h2]
  rfl

/-- Point t writes back block t of the first layer of the arrays the region found at its entry. -/
theorem flushed_eq (c : Dev nD) (t : Fin cfg0.N) :
    (dat0 (F := Ideal) V c).flushed 3 t
      = ((cfg0.win 3).blk t).view.read (Elt Ideal)
          (Cert.Spec.layer1 (V c main_v18) (V c main_arg3) (fun q => V c main_v19 (ix2 (0 : Fin 1) q))) := by
  show (cfg0.win 3).cut (grid0.coords t) ((dat0 (F := Ideal) V c).after 3 t) = _
  rw [after0_3]
  unfold out0_3
  rw [View.canon_unit_zero zero_offsets]
  simp only [View.ld_unit_zero (S := S2000x64) zero_offsets, View.ld_unit_zero (S := S64x64) zero_offsets,
    View.ld_unit_zero (S := S1x64) zero_offsets]
  obtain ⟨e00, e01, e10, e11, e20, e21, e30, e31⟩ := block_indices t
  have ht : t.val < 50 := t.isLt
  funext j
  obtain ⟨p, q, rfl⟩ : ∃ (p : Fin 2000) (q : Fin 64), j = ix2 p q := ⟨j 0, j 1, eq_ix2 j⟩
  have hp : p.val < 2000 := p.isLt
  have hi : ((cfg0.win 3).blk t).view.emb (ix2 p q) = ix2 (⟨t.val * 2000 + p.val, by omega⟩ : Fin 100000) q :=
    funext fun a => Fin.ext (match a with
      | ⟨0, _⟩ => by show win0_3.index t (0 : Fin 2) * 2000 + 1 * p.val = t.val * 2000 + p.val; omega
      | ⟨1, _⟩ => by show win0_3.index t (1 : Fin 2) * 64 + 1 * q.val = q.val; omega)
  have h0 : ∀ k : Fin 64, ((cfg0.win 0).blk t).view.emb (ix2 p k) = ix2 (⟨t.val * 2000 + p.val, by omega⟩ : Fin 100000) k :=
    fun k => funext fun a => Fin.ext (match a with
      | ⟨0, _⟩ => by show win0_0.index t (0 : Fin 2) * 2000 + 1 * p.val = t.val * 2000 + p.val; omega
      | ⟨1, _⟩ => by show win0_0.index t (1 : Fin 2) * 64 + 1 * k.val = k.val; omega)
  have h1 : ∀ k : Fin 64, ((cfg0.win 1).blk t).view.emb (ix2 k q) = ix2 k q :=
    fun k => funext fun a => Fin.ext (match a with
      | ⟨0, _⟩ => by show win0_1.index t (0 : Fin 2) * 64 + 1 * k.val = k.val; omega
      | ⟨1, _⟩ => by show win0_1.index t (1 : Fin 2) * 64 + 1 * q.val = q.val; omega)
  have h2 : ((cfg0.win 2).blk t).view.emb (ix2 (0 : Fin 1) q) = ix2 (0 : Fin 1) q :=
    funext fun a => Fin.ext (match a with
      | ⟨0, _⟩ => by show win0_2.index t (0 : Fin 2) * 1 + 1 * 0 = 0; omega
      | ⟨1, _⟩ => by show win0_2.index t (1 : Fin 2) * 64 + 1 * q.val = q.val; omega)
  refine Eq.trans ?_ (congrArg (Cert.Spec.layer1 (V c main_v18) (V c main_arg3) (fun q => V c main_v19 (ix2 (0 : Fin 1) q))) hi.symm)
  exact entry_eq (V c main_v18) (V c main_arg3) (V c main_v19) (iblk0 V c 0 t) (iblk0 V c 1 t) (iblk0 V c 2 t) p q _ q
    (fun k => congrArg (V c main_v18) (h0 k)) (fun k => congrArg (V c main_arg3) (h1 k)) (congrArg (V c main_v19) h2)

/-! ## The 50 row blocks tile the array -/

/-- An index of the array is in point t's block iff each coordinate is in the block's range on its axis. -/
theorem mem_block (t : Fin cfg0.N) (i : S100000x64.Idx) :
    i ∈ ((cfg0.win 3).blk t).view.set
      ↔ ∀ a : Fin 2, win0_3.index t a * S2000x64.size a ≤ (i a).val ∧ (i a).val < win0_3.index t a * S2000x64.size a + S2000x64.size a := by
  show i ∈ ((View.whole main_v20).slice (win0_3.rect t)).set ↔ _
  rw [View.set_slice_whole, Rect.mem_set_unit]
  exact Iff.rfl

/-- Row r of the array lies in the block of point r / 2000. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, e30, e31⟩ := block_indices t
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

/-! ## The array after the run -/

/-- The output array of region 0 after the run of its grid, from the region-entry contents `V`. -/
theorem final0 (c : Dev nD) :
    (dat0 (F := Ideal) V c).arrAt 3 cfg0.N
      = Cert.Spec.layer1 (V c main_v18) (V c main_arg3) (fun q => V c main_v19 (ix2 (0 : Fin 1) q)) :=
  (dat0 (F := Ideal) V c).arrAt_eq_of_cover 3 _ (fun t _ => flushed_eq V c t) covered

end Cert.KernelIdeal.Region0

end
-- ==== Proof.Region1.lean ====
/-
  The second pallas_call, read as a whole array: after its 50 grid points the output column is `out2` of the five
  arrays the region found at its entry. Point t loads rows 2000·t … 2000·t + 1999 of the left operand and the whole
  weight, bias and the two 1 × 1 arrays, and stores one score per row; the 50 row blocks tile the 100000 rows.
-/
import proofs.«149629_j18442589569957_1_alg».proof.Proof.Gen.KernelIdeal.Frame
import proofs.«149629_j18442589569957_1_alg».proof.Proof.Spec
import proofs.«149629_j18442589569957_1_alg».proof.Proof.LibMatmulAt
import Idealize.ShloMosaic.Lib.Pipeline.Value
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The contraction's dimension numbers: where they read their operands -/

/-- The left operand is read at the result's row … -/
theorem lhs_row (i : S2000x32.Idx) (q : dot_S2000x64_S64x32_S2000x32_1_0_0_1_n_n.contr.Idx) :
    (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
/-- … and the contracted coordinate, -/
theorem lhs_col (i : S2000x32.Idx) (q : dot_S2000x64_S64x32_S2000x32_1_0_0_1_n_n.contr.Idx) :
    (dot_S2000x64_S64x32_S2000x32_1_0_0_1_n_n.lhsIdx i q 1).val = (q ⟨0, by decide⟩).val :=
  dot_S2000x64_S64x32_S2000x32_1_0_0_1_n_n.lhsIdx_val_of_single rfl i q
/-- the right operand at the contracted coordinate … -/
theorem rhs_row (i : S2000x32.Idx) (q : dot_S2000x64_S64x32_S2000x32_1_0_0_1_n_n.contr.Idx) :
    (dot_S2000x64_S64x32_S2000x32_1_0_0_1_n_n.rhsIdx i q 0).val = (q ⟨0, by decide⟩).val :=
  dot_S2000x64_S64x32_S2000x32_1_0_0_1_n_n.rhsIdx_val_of_single rfl i q
/-- … and the result's column. -/
theorem rhs_col (i : S2000x32.Idx) (q : dot_S2000x64_S64x32_S2000x32_1_0_0_1_n_n.contr.Idx) :
    (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-! ## The body's value at one row -/

/-- The block of hidden activations the body forms: the product of the row block and the weight, plus the bias row,
    clamped below at zero. -/
def hid (x0 : Vec Ideal S2000x64 .f32) (x1 : Vec Ideal S64x32 .f32) (x2 : Vec Ideal S1x32 .f32) : FVec Ideal S2000x32 .f32 :=
  maximumf
    (addf
      (matmul (F := Ideal) dot_S2000x64_S64x32_S2000x32_1_0_0_1_n_n none
        (truncf .bf16 (shapeCast S2000x64 x0 shapeCasts_S2000x64_S2000x64) bitsLt_bf16_f32)
        (truncf .bf16 x1 bitsLt_bf16_f32) (constant (F := Ideal) S2000x32 .f32 0x00000000#32))
      (broadcastTo S2000x32 (shapeCast S1x32 x2 shapeCasts_S1x32_S1x32) broadcasts_S1x32_S2000x32))
    (broadcast S2000x32 (Scalar.ofBits .f32 0x00000000#32))

/-- Entry (p, k) of the hidden block: `max (∑ⱼ x0[p, j] · x1[j, k] + x2[0, k]) 0`. -/
theorem hid_at (x0 : Vec Ideal S2000x64 .f32) (x1 : Vec Ideal S64x32 .f32) (x2 : Vec Ideal S1x32 .f32) (p : Fin 2000) (k : Fin 32) :
    hid x0 x1 x2 (ix2 p k)
      = max ((∑ j : Fin 64, x0 (ix2 p j) * x1 (ix2 j k)) + x2 (ix2 (0 : Fin 1) k)) (Ideal.ofBits .f32 0x00000000#32) := by
  show max (FloatOps.matmul dot_S2000x64_S64x32_S2000x32_1_0_0_1_n_n none
        (truncf .bf16 (shapeCast S2000x64 x0 shapeCasts_S2000x64_S2000x64) bitsLt_bf16_f32)
        (truncf .bf16 x1 bitsLt_bf16_f32) (constant (F := Ideal) S2000x32 .f32 0x00000000#32) (ix2 p k)
      + broadcastTo S2000x32 (shapeCast S1x32 x2 shapeCasts_S1x32_S1x32) broadcasts_S1x32_S2000x32 (ix2 p k))
    (Ideal.ofBits .f32 0x00000000#32) = _
  refine congrArg₂ max (congrArg₂ (· + ·) ?_ ?_) rfl
  · refine (MatmulAt.matmul_zero_at dot_S2000x64_S64x32_S2000x32_1_0_0_1_n_n rfl rfl lhs_row lhs_col rhs_row rhs_col none _ _ p k).trans ?_
    refine Finset.sum_congr rfl fun j _ => ?_
    exact congrArg₂ (· * ·) (congrFun (shapeCast_self x0 shapeCasts_S2000x64_S2000x64) (ix2 p j)) rfl
  · refine (broadcastTo_apply _ broadcasts_S1x32_S2000x32 (ix2 p k) (ix2 (0 : Fin 1) k) (fun a => ?_)).trans
      (congrFun (shapeCast_self x2 shapeCasts_S1x32_S1x32) _)
    match a with
    | ⟨0, _⟩ => rfl
    | ⟨1, _⟩ => rfl

/-- The lane sum's source index over row `p` at lane `k` is (p, k). -/
theorem lift_row (p : Fin 2000) (k : Fin 32) :
    reduces_S2000x32_S2000.lift (ix1 p) k = ix2 p k :=
  funext fun a => Fin.ext (by
    match a with
    | ⟨0, _⟩ => rfl
    | ⟨1, _⟩ => rfl)

/-- The body's stored column at row `p`: the logistic of the mean (the sum over the 32 lanes divided by the printed
    word for 32) of the hidden activations, times the 1 × 1 weight plus the 1 × 1 bias. -/
theorem pay_at (x0 : Vec Ideal S2000x64 .f32) (x1 : Vec Ideal S64x32 .f32) (x2 : Vec Ideal S1x32 .f32)
    (x3 x4 : Vec Ideal S1x1 .f32) (p : Fin 2000) :
    k1_pay1 x0 x1 x2 x3 x4 (ix2 p (0 : Fin 1))
      = Ideal.logistic (Ideal.div
            (∑ k : Fin 32, max ((∑ j : Fin 64, x0 (ix2 p j) * x1 (ix2 j k)) + x2 (ix2 (0 : Fin 1) k)) (Ideal.ofBits .f32 0x00000000#32))
            (Ideal.ofBits .f32 0x42000000#32)
          * x3 (ix2 (0 : Fin 1) (0 : Fin 1)) + x4 (ix2 (0 : Fin 1) (0 : Fin 1))) := by
  unfold k1_pay1
  show Ideal.logistic (Ideal.div
      (shapeCast S2000x1 (multiReduction (F := Ideal) .add [1] S2000 (hid x0 x1 x2) 0x00000000#32 reduces_S2000x32_S2000 (.inl rfl) rfl)
        shapeCasts_S2000_S2000x1 (ix2 p (0 : Fin 1)))
      (Ideal.ofBits .f32 0x42000000#32)
    * broadcastTo S2000x1 x3 broadcasts_S1x1_S2000x1 (ix2 p (0 : Fin 1))
    + broadcastTo S2000x1 (shapeCast S1x1 x4 shapeCasts_S1x1_S1x1) broadcasts_S1x1_S2000x1 (ix2 p (0 : Fin 1))) = _
  refine congrArg Ideal.logistic (congrArg₂ (· + ·) (congrArg₂ (· * ·) (congrArg (Ideal.div · _) ?_) ?_) ?_)
  · refine (shapeCast_apply _ shapeCasts_S2000_S2000x1 (ix2 p (0 : Fin 1)) (ix1 p) ?_).trans ?_
    · rw [Shape.rowMajor_val_one, Shape.rowMajor_val_two]
      show p.val = p.val * 1 + 0
      omega
    · refine (Ideal.multiReduction_add_single (hid x0 x1 x2) 0x00000000#32 reduces_S2000x32_S2000 (.inl rfl) rfl (ix1 p)).trans ?_
      refine Finset.sum_congr rfl fun k _ => ?_
      exact (congrArg (hid x0 x1 x2) (lift_row p k)).trans (hid_at x0 x1 x2 p k)
  · refine broadcastTo_apply x3 broadcasts_S1x1_S2000x1 (ix2 p (0 : Fin 1)) (ix2 (0 : Fin 1) (0 : Fin 1)) (fun a => ?_)
    match a with
    | ⟨0, _⟩ => rfl
    | ⟨1, _⟩ => rfl
  · refine (broadcastTo_apply _ broadcasts_S1x1_S2000x1 (ix2 p (0 : Fin 1)) (ix2 (0 : Fin 1) (0 : Fin 1)) (fun a => ?_)).trans
      (congrFun (shapeCast_self x4 shapeCasts_S1x1_S1x1) _)
    match a with
    | ⟨0, _⟩ => rfl
    | ⟨1, _⟩ => rfl

/-! ## From the blocks to the array -/

theorem zero_off : (![0, 0] : Fin 2 → Nat) = fun _ => 0 := funext fun a => by fin_cases a <;> rfl

/-- The printed index maps, decided over the grid of 50 points: the row-block windows (the left operand's and the
    output's) sit at block (t, 0), every other window at block (0, 0). -/
theorem index_facts : ∀ t : Fin cfg1.N, t.val < 50
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point `t`'s block of the left operand holds rows 2000·t … 2000·t + 1999 of the array. -/
theorem lhs_block_at (c : Dev nD) (t : Fin cfg1.N) (p : Fin 2000) (j : Fin 64) (P : Fin 100000)
    (hP : P.val = t.val * 2000 + p.val) :
    iblk1 V c 0 t (ix2 p j) = V c main_v32 (ix2 P j) := by
  obtain ⟨ht, e00, e01, -⟩ := index_facts t
  show V c main_v32 (((cfg1.win 0).blk t).view.emb (ix2 p j)) = V c main_v32 (ix2 P j)
  refine congrArg (V c main_v32) (funext fun a => Fin.ext ?_)
  match a with
  | ⟨0, _⟩ => show win1_0.index t (0 : Fin 2) * 2000 + 1 * p.val = P.val; omega
  | ⟨1, _⟩ => show win1_0.index t (1 : Fin 2) * 64 + 1 * j.val = j.val; omega

/-- The weight, the bias row and the two 1 × 1 arrays are loaded whole at every point. -/
theorem weight_block_at (c : Dev nD) (t : Fin cfg1.N) (j : Fin 64) (k : Fin 32) :
    iblk1 V c 1 t (ix2 j k) = V c main_arg5 (ix2 j k) := by
  obtain ⟨-, -, -, e10, e11, -⟩ := index_facts t
  show V c main_arg5 (((cfg1.win 1).blk t).view.emb (ix2 j k)) = V c main_arg5 (ix2 j k)
  refine congrArg (V c main_arg5) (funext fun a => Fin.ext ?_)
  match a with
  | ⟨0, _⟩ => show win1_1.index t (0 : Fin 2) * 64 + 1 * j.val = j.val; omega
  | ⟨1, _⟩ => show win1_1.index t (1 : Fin 2) * 32 + 1 * k.val = k.val; omega

theorem bias_block_at (c : Dev nD) (t : Fin cfg1.N) (k : Fin 32) :
    iblk1 V c 2 t (ix2 (0 : Fin 1) k) = V c main_v33 (ix2 (0 : Fin 1) k) := by
  obtain ⟨-, -, -, -, -, e20, e21, -⟩ := index_facts t
  show V c main_v33 (((cfg1.win 2).blk t).view.emb (ix2 (0 : Fin 1) k)) = V c main_v33 (ix2 (0 : Fin 1) k)
  refine congrArg (V c main_v33) (funext fun a => Fin.ext ?_)
  match a with
  | ⟨0, _⟩ => show win1_2.index t (0 : Fin 2) * 1 + 1 * 0 = 0; omega
  | ⟨1, _⟩ => show win1_2.index t (1 : Fin 2) * 32 + 1 * k.val = k.val; omega

theorem wd_block_at (c : Dev nD) (t : Fin cfg1.N) :
    iblk1 V c 3 t (ix2 (0 : Fin 1) (0 : Fin 1)) = V c main_arg7 (ix2 (0 : Fin 1) (0 : Fin 1)) := by
  obtain ⟨-, -, -, -, -, -, -, e30, e31, -⟩ := index_facts t
  show V c main_arg7 (((cfg1.win 3).blk t).view.emb (ix2 (0 : Fin 1) (0 : Fin 1))) = V c main_arg7 (ix2 (0 : Fin 1) (0 : Fin 1))
  refine congrArg (V c main_arg7) (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

theorem bd_block_at (c : Dev nD) (t : Fin cfg1.N) :
    iblk1 V c 4 t (ix2 (0 : Fin 1) (0 : Fin 1)) = V c main_v34 (ix2 (0 : Fin 1) (0 : Fin 1)) := by
  obtain ⟨-, -, -, -, -, -, -, -, -, e40, e41, -⟩ := index_facts t
  show V c main_v34 (((cfg1.win 4).blk t).view.emb (ix2 (0 : Fin 1) (0 : Fin 1))) = V c main_v34 (ix2 (0 : Fin 1) (0 : Fin 1))
  refine congrArg (V c main_v34) (funext fun a => Fin.ext ?_)
  match a with
  | ⟨0, _⟩ => show win1_4.index t (0 : Fin 2) * 1 + 1 * 0 = 0; omega
  | ⟨1, _⟩ => show win1_4.index t (1 : Fin 2) * 1 + 1 * 0 = 0; omega

/-- What point `t` writes back is block `t` of the score column of the arrays the region found. -/
theorem flushed_eq (c : Dev nD) (t : Fin cfg1.N) :
    (dat1 (F := Ideal) V c).flushed 5 t
      = ((cfg1.win 5).blk t).view.read (Elt Ideal)
          (Cert.Spec.out2 (V c main_v32) (V c main_arg5) (fun k => V c main_v33 (ix2 (0 : Fin 1) k))
            (V c main_arg7 (ix2 (0 : Fin 1) (0 : Fin 1))) (V c main_v34 (ix2 (0 : Fin 1) (0 : Fin 1)))) := by
  show (cfg1.win 5).cut (grid1.coords t) ((dat1 V c).after 5 t) = _
  rw [after1_5]
  unfold out1_5
  rw [View.canon_unit_zero zero_off]
  simp only [View.ld_unit_zero (S := S2000x64) zero_off, View.ld_unit_zero (S := S64x32) zero_off,
    View.ld_unit_zero (S := S1x32) zero_off, View.ld_unit_zero (S := S1x1) zero_off]
  obtain ⟨ht, -, -, -, -, -, -, -, -, -, -, e50, e51⟩ := index_facts t
  refine funext fun (j : S2000x1.Idx) => ?_
  obtain ⟨p, q, rfl⟩ : ∃ (p : Fin 2000) (q : Fin 1), j = ix2 p q := ⟨j 0, j 1, eq_ix2 j⟩
  obtain rfl : q = 0 := Subsingleton.elim _ _
  have hP : t.val * 2000 + p.val < 100000 := by have := p.isLt; omega
  show k1_pay1 (iblk1 V c 0 t) (iblk1 V c 1 t) (iblk1 V c 2 t) (iblk1 V c 3 t) (iblk1 V c 4 t) (ix2 p (0 : Fin 1))
    = Cert.Spec.out2 (V c main_v32) (V c main_arg5) (fun k => V c main_v33 (ix2 (0 : Fin 1) k))
        (V c main_arg7 (ix2 (0 : Fin 1) (0 : Fin 1))) (V c main_v34 (ix2 (0 : Fin 1) (0 : Fin 1)))
        (((cfg1.win 5).blk t).view.emb (ix2 p (0 : Fin 1)))
  refine (pay_at _ _ _ _ _ p).trans ?_
  have hrow : (((cfg1.win 5).blk t).view.emb (ix2 p (0 : Fin 1))) 0 = (⟨t.val * 2000 + p.val, hP⟩ : Fin 100000) :=
    Fin.ext (by show win1_5.index t (0 : Fin 2) * 2000 + 1 * p.val = t.val * 2000 + p.val; omega)
  show _ = Cert.Spec.score (V c main_v32) (V c main_arg5) (fun k => V c main_v33 (ix2 (0 : Fin 1) k))
        (V c main_arg7 (ix2 (0 : Fin 1) (0 : Fin 1))) (V c main_v34 (ix2 (0 : Fin 1) (0 : Fin 1)))
        ((((cfg1.win 5).blk t).view.emb (ix2 p (0 : Fin 1))) 0)
  rw [hrow]
  unfold Cert.Spec.score Cert.Spec.hidden2
  rw [wd_block_at V c t, bd_block_at V c t]
  refine congrArg Ideal.logistic (congrArg₂ (· + ·) (congrArg₂ (· * ·) (congrArg (Ideal.div · _) ?_) rfl) rfl)
  refine Finset.sum_congr rfl fun k _ => ?_
  rw [bias_block_at V c t k]
  refine congrArg₂ max (congrArg₂ (· + ·) ?_ rfl) rfl
  refine Finset.sum_congr rfl fun j _ => ?_
  rw [lhs_block_at V c t p j ⟨t.val * 2000 + p.val, hP⟩ rfl, weight_block_at V c t j k]

/-- An index of the output array is in point `t`'s block iff each coordinate is in the block's range on its axis. -/
theorem mem_blk (t : Fin cfg1.N) (i : S100000x1.Idx) :
    i ∈ ((cfg1.win 5).blk t).view.set
      ↔ ∀ a : Fin 2, win1_5.index t a * S2000x1.size a ≤ (i a).val ∧ (i a).val < win1_5.index t a * S2000x1.size a + S2000x1.size a := by
  show i ∈ ((View.whole main_v35).slice (win1_5.rect t)).set ↔ _
  rw [View.set_slice_whole, Rect.mem_set_unit]
  exact Iff.rfl

/-- The 50 row blocks tile the 100000 rows: row `r` lies in the block of point `r / 2000`. -/
theorem cover (i : S100000x1.Idx) :
    ∃ t : Fin cfg1.N, (cfg1.win 5).flush t = true ∧ i ∈ ((cfg1.win 5).blk t).view.set := by
  have h0 : (i 0).val < 100000 := (i 0).isLt
  have h1 : (i 1).val < 1 := (i 1).isLt
  let t : Fin cfg1.N := (⟨(i 0).val / 2000, by omega⟩ : Fin 50)
  obtain ⟨-, -, -, -, -, -, -, -, -, -, -, e50, e51⟩ := index_facts t
  have et : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 1 ≤ (i 1).val ∧ (i 1).val < win1_5.index t (1 : Fin 2) * 1 + 1; omega

/-- The output array of region 1 after the run of its grid, from the region-entry contents `V`. -/
theorem final1 (c : Dev nD) :
    (dat1 (F := Ideal) V c).arrAt 5 cfg1.N
      = Cert.Spec.out2 (V c main_v32) (V c main_arg5) (fun k => V c main_v33 (ix2 (0 : Fin 1) k))
          (V c main_arg7 (ix2 (0 : Fin 1) (0 : Fin 1))) (V c main_v34 (ix2 (0 : Fin 1) (0 : Fin 1))) :=
  (dat1 (F := Ideal) V c).arrAt_eq_of_cover 5 _ (fun t _ => flushed_eq V c t) cover

end Cert.KernelIdeal.Region1

end
-- ==== Proof.Agg.lean ====
/-
  Mean aggregation over incoming edges, and the whole network as one function of the nine argument arrays.

  For an array `h` of node rows, `agg h src dst` is the array whose row `n` is the sum of the rows `h[src e]` over the
  edges `e` with `dst e = n`, divided by `max (number of such edges) 1`. A negative source id is first wrapped by the
  node count. Both programs compute it with the same host gather, scatter-add and divide, so it is carried as one
  function and never opened: the two programs are compared on what they feed it and on what they do with its result.

  `G` composes it with the two dense layers of `Cert.Spec`: aggregate, first layer, aggregate again, score.
-/
import proofs.«149629_j18442589569957_1_alg».proof.ReferenceIdeal
import proofs.«149629_j18442589569957_1_alg».proof.Proof.Gen.ReferenceIdeal
import proofs.«149629_j18442589569957_1_alg».proof.Proof.Spec

noncomputable section

namespace Cert.Agg

open Cert.ReferenceIdeal Cert.ReferenceIdeal.Gen Idealize.ShloMosaic Idealize.ShloMosaic.ValueIdx

variable {F : FTy → Type} [FloatOps F]

/-- The gather indices: each edge's source id, a negative one wrapped by the node count, as a column. -/
def srcIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Each node's in-degree, at least one, spread along the feature axis. -/
def degree (dst : (⟨S1600000, .i32⟩ : BufTy).Contents (Elt F)) : (⟨S100000x64, .f32⟩ : BufTy).Contents (Elt F) :=
  broadcastInDim S100000x64 ![0, 1] bcast_S100000x1_S100000x64_0_1
    (broadcastInDim S100000x1 ![0] bcast_S100000_S100000x1_0
      (maximumf
        (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32)))
        (broadcastInDim S100000 ![] bcast_S_S100000 (constant S_ .f32 0x3F800000#32))))

/-- Row `n`: the mean of the rows `h[src e]` over the edges into `n`. -/
def agg (h : (⟨S100000x64, .f32⟩ : BufTy).Contents (Elt F)) (src dst : (⟨S1600000, .i32⟩ : BufTy).Contents (Elt F)) :
    (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 h (srcIdx src)))
    (degree dst)

/-- The network: aggregate the node features, first dense layer, aggregate again, score every node. -/
def G (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal))
    (x5 : (⟨S64x32, .f32⟩ : BufTy).Contents (Elt Ideal)) (x6 : (⟨S32, .f32⟩ : BufTy).Contents (Elt Ideal))
    (x7 : (⟨S1x1, .f32⟩ : BufTy).Contents (Elt Ideal)) (x8 : (⟨S1, .f32⟩ : BufTy).Contents (Elt Ideal)) :
    (⟨S100000x1, .f32⟩ : BufTy).Contents (Elt Ideal) :=
  Cert.Spec.out2
    (agg (F := Ideal) (Cert.Spec.layer1 (agg (F := Ideal) x0 x1 x2) x3 (fun q => x4 (ix1 q))) x1 x2)
    x5 (fun k => x6 (ix1 k)) (x7 (ix2 (0 : Fin 1) (0 : Fin 1))) (x8 (ix1 (0 : Fin 1)))

end Cert.Agg

end
-- ==== Proof.KernelHost.lean ====
/-
  What the two regions find at their entries, in terms of the launch memory.

  Before region 0 the host operations leave `agg` of the node features in the left operand's buffer, the first
  weight as launched and the first bias reshaped to a row. Between the regions they leave `agg` of region 0's output
  array (the in-degree column computed before region 0 is used again), the second weight and the 1 × 1 weight as
  launched, and the two biases reshaped.
-/
import proofs.«149629_j18442589569957_1_alg».proof.Proof.Gen.KernelIdeal.Frame
import proofs.«149629_j18442589569957_1_alg».proof.Proof.Agg
import Idealize.ShloMosaic.Lib.StableHlo.Run
import Idealize.ShloMosaic.Lib.Pipeline.Value
import Idealize.ShloMosaic.Lib.ValueLayout

set_option maxRecDepth 16384

noncomputable section

namespace Cert.KernelIdeal.HostVal

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- Every operation of a literal list writes one reference, none of them the goal's: the membership `b ∉ op.writes`
    at each operation is an inequality of two literal references. -/
local macro "unwritten " ops:ident : tactic =>
  `(tactic| (
    refine List.forall_iff_forall_mem.mp ?_
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The edge lists before region 0: no host operation writes them, so they hold the launch memory -/

theorem W1_arg1 (c : Dev nD) : W1 m ρ c (Proc.devRef .tc main_arg1) = m ((c : Thread nD τ).loc main_arg1) :=
  StableHlo.after_of_forall_not_mem (b := Proc.devRef .tc main_arg1) _ _ (by unwritten hostOps0)

theorem W1_arg2 (c : Dev nD) : W1 m ρ c (Proc.devRef .tc main_arg2) = m ((c : Thread nD τ).loc main_arg2) :=
  StableHlo.after_of_forall_not_mem (b := Proc.devRef .tc main_arg2) _ _ (by unwritten hostOps0)

/-! ## At region 0's entry -/

/-- The left operand: the scatter-sum of the gathered rows over the in-degree, which is `agg` of the launch
    features and edge lists term by term. -/
theorem V1_v18 (c : Dev nD) :
    V1 m ρ c main_v18 = Cert.Agg.agg (F := Ideal) (m ((c : Thread nD τ).loc main_arg0)) (m ((c : Thread nD τ).loc main_arg1)) (m ((c : Thread nD τ).loc main_arg2)) := by
  dsimp only [V1, W1, hostOps0]
  after_results_simp
  unfold Cert.Agg.agg Cert.Agg.degree Cert.Agg.srcIdx
  rfl

/-- The first weight: written by no host operation. -/
theorem V1_arg3 (c : Dev nD) : V1 m ρ c main_arg3 = (m ((c : Thread nD τ).loc main_arg3)) :=
  StableHlo.after_of_forall_not_mem (b := Proc.devRef .tc main_arg3) _ _ (by unwritten hostOps0)

/-- The first bias as a row: a `[64]` array viewed `[1, 64]` reads entry `q` at `(0, q)`. -/
theorem V1_v19 (c : Dev nD) (q : Fin 64) : V1 m ρ c main_v19 (ix2 (0 : Fin 1) q) = (m ((c : Thread nD τ).loc main_arg4)) (ix1 q) := by
  dsimp only [V1, W1, hostOps0]
  after_results_simp
  exact shapeCast_a_1a_apply (a := 64) _ _ (0 : Fin 1) q

/-! ## At region 1's entry -/

/-- The left operand: the same scatter-sum over region 0's output array. The edge lists and the in-degree column are
    none of region 0's arrays, so they are as at its entry: the lists as launched, the column as computed there from
    the destination list; the quotient is then `agg` term by term. -/
theorem V3_v32 (c : Dev nD) :
    V3 m ρ c main_v32 = Cert.Agg.agg (F := Ideal) (W2 m ρ c (Proc.devRef .tc main_v20)) (m ((c : Thread nD τ).loc main_arg1)) (m ((c : Thread nD τ).loc main_arg2)) := by
  dsimp only [V3, W3, hostOps1]
  after_results_simp
  rw [W2_of_ne m ρ c main_arg1 (by decide), W2_of_ne m ρ c main_arg2 (by decide), W2_of_ne m ρ c main_v6 (by decide),
    W1_arg1, W1_arg2]
  dsimp only [W1, hostOps0]
  after_results_simp
  unfold Cert.Agg.agg Cert.Agg.degree Cert.Agg.srcIdx
  rfl

/-- The second weight: written by no host operation and none of region 0's arrays. -/
theorem V3_arg5 (c : Dev nD) : V3 m ρ c main_arg5 = (m ((c : Thread nD τ).loc main_arg5)) :=
  calc V3 m ρ c main_arg5
    _ = W2 m ρ c (Proc.devRef .tc main_arg5) := StableHlo.after_of_forall_not_mem (b := Proc.devRef .tc main_arg5) _ _ (by unwritten hostOps1)
    _ = W1 m ρ c (Proc.devRef .tc main_arg5) := W2_of_ne m ρ c main_arg5 (by decide)
    _ = m ((c : Thread nD τ).loc main_arg5) := StableHlo.after_of_forall_not_mem (b := Proc.devRef .tc main_arg5) _ _ (by unwritten hostOps0)

/-- The second bias as a row: a `[32]` array viewed `[1, 32]` reads entry `k` at `(0, k)`. -/
theorem V3_v33 (c : Dev nD) (k : Fin 32) : V3 m ρ c main_v33 (ix2 (0 : Fin 1) k) = (m ((c : Thread nD τ).loc main_arg6)) (ix1 k) := by
  have h6 : W2 m ρ c (Proc.devRef .tc main_arg6) = m ((c : Thread nD τ).loc main_arg6) :=
    calc W2 m ρ c (Proc.devRef .tc main_arg6)
      _ = W1 m ρ c (Proc.devRef .tc main_arg6) := W2_of_ne m ρ c main_arg6 (by decide)
      _ = m ((c : Thread nD τ).loc main_arg6) := StableHlo.after_of_forall_not_mem (b := Proc.devRef .tc main_arg6) _ _ (by unwritten hostOps0)
  dsimp only [V3, W3, hostOps1]
  after_results_simp
  rw [h6]
  exact shapeCast_a_1a_apply (a := 32) _ _ (0 : Fin 1) k

/-- The 1 × 1 weight: written by no host operation and none of region 0's arrays. -/
theorem V3_arg7 (c : Dev nD) : V3 m ρ c main_arg7 = (m ((c : Thread nD τ).loc main_arg7)) :=
  calc V3 m ρ c main_arg7
    _ = W2 m ρ c (Proc.devRef .tc main_arg7) := StableHlo.after_of_forall_not_mem (b := Proc.devRef .tc main_arg7) _ _ (by unwritten hostOps1)
    _ = W1 m ρ c (Proc.devRef .tc main_arg7) := W2_of_ne m ρ c main_arg7 (by decide)
    _ = m ((c : Thread nD τ).loc main_arg7) := StableHlo.after_of_forall_not_mem (b := Proc.devRef .tc main_arg7) _ _ (by unwritten hostOps0)

/-- The last bias as a 1 × 1 array: a `[1]` array viewed `[1, 1]` reads its entry at `(0, 0)`. -/
theorem V3_v34 (c : Dev nD) : V3 m ρ c main_v34 (ix2 (0 : Fin 1) (0 : Fin 1)) = (m ((c : Thread nD τ).loc main_arg8)) (ix1 (0 : Fin 1)) := by
  have h8 : W2 m ρ c (Proc.devRef .tc main_arg8) = m ((c : Thread nD τ).loc main_arg8) :=
    calc W2 m ρ c (Proc.devRef .tc main_arg8)
      _ = W1 m ρ c (Proc.devRef .tc main_arg8) := W2_of_ne m ρ c main_arg8 (by decide)
      _ = m ((c : Thread nD τ).loc main_arg8) := StableHlo.after_of_forall_not_mem (b := Proc.devRef .tc main_arg8) _ _ (by unwritten hostOps0)
  dsimp only [V3, W3, hostOps1]
  after_results_simp
  rw [h8]
  exact shapeCast_a_1a_apply (a := 1) _ _ (0 : Fin 1) (0 : Fin 1)

end Cert.KernelIdeal.HostVal

end
-- ==== Proof.KernelValue.lean ====
/-
  The kernel program's result, as the network `Cert.Agg.G` of the launch memory: the last boundary's contents at the
  result buffer are region 1's output array, which is `out2` of what region 1 found; its left operand is `agg` of
  region 0's output array, which is `layer1` of what region 0 found; and that is `agg` of the node features.
-/
import proofs.«149629_j18442589569957_1_alg».proof.Proof.Region0
import proofs.«149629_j18442589569957_1_alg».proof.Proof.Region1
import proofs.«149629_j18442589569957_1_alg».proof.Proof.KernelHost

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

theorem W4_v35 (c : Dev nD) :
    W4 m ρ c (Proc.devRef .tc main_v35)
      = Cert.Agg.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  calc W4 m ρ c (Proc.devRef .tc main_v35)
    _ = (dat1 (F := Ideal) (V3 m ρ) c).arrAt 5 cfg1.N := W4_arr m ρ c 5
    _ = Cert.Spec.out2 (V3 m ρ c main_v32) (V3 m ρ c main_arg5) (fun k => V3 m ρ c main_v33 (ix2 (0 : Fin 1) k))
          (V3 m ρ c main_arg7 (ix2 (0 : Fin 1) (0 : Fin 1))) (V3 m ρ c main_v34 (ix2 (0 : Fin 1) (0 : Fin 1))) :=
        Cert.KernelIdeal.Region1.final1 (V3 m ρ) c
    _ = _ := by
        -- region 1's operands, then region 0's output array under the second aggregation, then region 0's operands
        have hmid : W2 m ρ c (Proc.devRef .tc main_v20)
            = Cert.Spec.layer1 (V1 m ρ c main_v18) (V1 m ρ c main_arg3) (fun q => V1 m ρ c main_v19 (ix2 (0 : Fin 1) q)) :=
          (W2_arr m ρ c 3).trans (Cert.KernelIdeal.Region0.final0 (V1 m ρ) c)
        rw [Cert.KernelIdeal.HostVal.V3_v32, Cert.KernelIdeal.HostVal.V3_arg5, Cert.KernelIdeal.HostVal.V3_arg7,
          Cert.KernelIdeal.HostVal.V3_v34, hmid, Cert.KernelIdeal.HostVal.V1_v18, Cert.KernelIdeal.HostVal.V1_arg3]
        have hb1 : (fun q : Fin 64 => V1 m ρ c main_v19 (ix2 (0 : Fin 1) q)) = fun q => (m ((c : Thread nD τ).loc main_arg4)) (ix1 q) :=
          funext fun q => Cert.KernelIdeal.HostVal.V1_v19 m ρ c q
        have hb2 : (fun k : Fin 32 => V3 m ρ c main_v33 (ix2 (0 : Fin 1) k)) = fun k => (m ((c : Thread nD τ).loc main_arg6)) (ix1 k) :=
          funext fun k => Cert.KernelIdeal.HostVal.V3_v33 m ρ c k
        rw [hb1, hb2]
        rfl

end Cert.KernelIdeal.Val

end
-- ==== Proof.RefValue.lean ====
/-
  The reference, stage by stage, is the network `Cert.Agg.G`.

  Its two aggregation stages are `Cert.Agg.agg` by unfolding. Its first dense layer (a whole `dot_general`, the bias
  broadcast along the rows, a maximum with zero) is `Cert.Spec.layer1` entry by entry. Its tail — the second dense
  layer, the sum over the 32 hidden columns from a zero initial value, the division by 32, the 1 × 1 `dot_general`
  (a one-term sum), the bias, and `1 / (1 + exp (-x))` — is `Cert.Spec.score`, the last step because the logistic
  function on the extended reals is defined as that quotient.
-/
import proofs.«149629_j18442589569957_1_alg».proof.Proof.Gen.ReferenceIdeal.Read
import proofs.«149629_j18442589569957_1_alg».proof.Proof.Agg

noncomputable section

namespace Cert.RefValue

open Cert.ReferenceIdeal Cert.ReferenceIdeal.Gen Cert.ReferenceIdeal.Read Idealize.ShloMosaic Idealize.ShloMosaic.ValueIdx

/-- The first aggregation stage is `agg` of the node features. -/
theorem agg1_eq (x0 : (⟨S100000x64, .f32⟩ : BufTy).Contents (Elt Ideal)) (x1 x2 : (⟨S1600000, .i32⟩ : BufTy).Contents (Elt Ideal)) :
    val_main_v18 (F := Ideal) x0 x1 x2 = Cert.Agg.agg (F := Ideal) x0 x1 x2 := rfl

/-- The second aggregation stage is `agg` of the first layer's output. -/
theorem agg2_eq (x0 : (⟨S100000x64, .f32⟩ : BufTy).Contents (Elt Ideal)) (x1 x2 : (⟨S1600000, .i32⟩ : BufTy).Contents (Elt Ideal)) (x3 : (⟨S64x64, .f32⟩ : BufTy).Contents (Elt Ideal)) (x4 : (⟨S64, .f32⟩ : BufTy).Contents (Elt Ideal)) :
    val_main_v42 (F := Ideal) x0 x1 x2 x3 x4 = Cert.Agg.agg (F := Ideal) (val_main_v23 (F := Ideal) x0 x1 x2 x3 x4) x1 x2 := rfl

/-- The first layer's output is `layer1` of the aggregated features. -/
theorem hidden_eq (x0 : (⟨S100000x64, .f32⟩ : BufTy).Contents (Elt Ideal)) (x1 x2 : (⟨S1600000, .i32⟩ : BufTy).Contents (Elt Ideal)) (x3 : (⟨S64x64, .f32⟩ : BufTy).Contents (Elt Ideal)) (x4 : (⟨S64, .f32⟩ : BufTy).Contents (Elt Ideal)) :
    val_main_v23 (F := Ideal) x0 x1 x2 x3 x4
      = Cert.Spec.layer1 (Cert.Agg.agg (F := Ideal) x0 x1 x2) x3 (fun q => x4 (ix1 q)) := by
  funext i
  obtain ⟨p, q, rfl⟩ : ∃ (p : Fin 100000) (q : Fin 64), i = ix2 p q := ⟨i 0, i 1, eq_ix2 i⟩
  -- the contraction reads row p of the left operand at column k, and row k of the weights at column q
  have el : ∀ k : Fin 64, lidx_main_v19 (ix2 p q) k = ix2 p k := fun k =>
    funext fun a => Fin.ext (by match a with | ⟨0, _⟩ => rfl | ⟨1, _⟩ => rfl)
  have er : ∀ k : Fin 64, ridx_main_v19 (ix2 p q) k = ix2 k q := fun k =>
    funext fun a => Fin.ext (by match a with | ⟨0, _⟩ => rfl | ⟨1, _⟩ => rfl)
  -- the bias, spread along the rows, is read at column q
  have eb : idx_main_v20 (idx_main_v21 (ix2 p q)) = ix1 q :=
    funext fun a => Fin.ext (by match a with | ⟨0, _⟩ => rfl)
  rw [val_main_v23_apply, val_main_v22_apply, val_main_v19_apply, agg1_eq, val_main_v21_apply, val_main_v20_apply,
    val_main_call0_v0_apply, val_main_call0_cst_apply]
  simp only [el, er, eb, Ideal.maximumf_def, Ideal.addf_def, Ideal.ofBits_def, Cert.Spec.layer1, Cert.Spec.hidden1]

/-- Entry (p, k) of the second layer's hidden activations, read off the reference: the second aggregation stage
    contracted with the weights over the 64 features, plus the bias at k, maximum with the zero word. -/
theorem hidden2_entry (x0 : (⟨S100000x64, .f32⟩ : BufTy).Contents (Elt Ideal)) (x1 x2 : (⟨S1600000, .i32⟩ : BufTy).Contents (Elt Ideal)) (x3 : (⟨S64x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (p : Fin 100000) (k : Fin 32) :
    val_main_v47 (F := Ideal) x0 x1 x2 x3 x4 x5 x6 (ix2 p k)
      = Cert.Spec.hidden2
          (Cert.Agg.agg (F := Ideal) (Cert.Spec.layer1 (Cert.Agg.agg (F := Ideal) x0 x1 x2) x3 (fun q => x4 (ix1 q))) x1 x2)
          x5 (fun k => x6 (ix1 k)) p k := by
  -- the contraction reads row p of the left operand at column j, and row j of the weights at column k
  have el : ∀ j : Fin 64, lidx_main_v43 (ix2 p k) j = ix2 p j := fun j =>
    funext fun a => Fin.ext (by match a with | ⟨0, _⟩ => rfl | ⟨1, _⟩ => rfl)
  have er : ∀ j : Fin 64, ridx_main_v43 (ix2 p k) j = ix2 j k := fun j =>
    funext fun a => Fin.ext (by match a with | ⟨0, _⟩ => rfl | ⟨1, _⟩ => rfl)
  -- the bias, spread along the rows, is read at column k
  have eb : idx_main_v44 (idx_main_v45 (ix2 p k)) = ix1 k :=
    funext fun a => Fin.ext (by match a with | ⟨0, _⟩ => rfl)
  -- the left operand is the second aggregation stage, which is `agg` of the first layer's output
  rw [val_main_v47_apply, val_main_v46_apply, val_main_v43_apply, agg2_eq, hidden_eq, val_main_v45_apply, val_main_v44_apply,
    val_main_call1_v0_apply, val_main_call1_cst_apply]
  simp only [el, er, eb, Ideal.maximumf_def, Ideal.addf_def, Ideal.ofBits_def, Cert.Spec.hidden2]

/-- The float word 0x3F800000 is the number one. -/
theorem ofBits_one_f32 : Ideal.ofBits .f32 0x3F800000#32 = 1 := by
  simp [Ideal.ofBits, Ideal.ieee, -EReal.coe_mul]; norm_num

/-- The reference's result is the network. -/
theorem ref_eq (x0 : (⟨S100000x64, .f32⟩ : BufTy).Contents (Elt Ideal)) (x1 x2 : (⟨S1600000, .i32⟩ : BufTy).Contents (Elt Ideal)) (x3 : (⟨S64x64, .f32⟩ : BufTy).Contents (Elt Ideal)) (x4 : (⟨S64, .f32⟩ : BufTy).Contents (Elt Ideal)) (x5 : (⟨S64x32, .f32⟩ : BufTy).Contents (Elt Ideal)) (x6 : (⟨S32, .f32⟩ : BufTy).Contents (Elt Ideal)) (x7 : (⟨S1x1, .f32⟩ : BufTy).Contents (Elt Ideal)) (x8 : (⟨S1, .f32⟩ : BufTy).Contents (Elt Ideal)) :
    val_main_v61 (F := Ideal) x0 x1 x2 x3 x4 x5 x6 x7 x8 = Cert.Agg.G x0 x1 x2 x3 x4 x5 x6 x7 x8 := by
  funext i
  obtain ⟨p, z, rfl⟩ : ∃ (p : Fin 100000) (z : Fin 1), i = ix2 p z := ⟨i 0, i 1, eq_ix2 i⟩
  -- the second axis has extent one
  obtain rfl : z = 0 := Subsingleton.elim _ _
  -- the 1 × 1 contraction's single term reads the mean at (p, 0) and the weight at (0, 0)
  have e52l : lidx_main_v52 (ix2 p (0 : Fin 1)) 0 = ix2 p (0 : Fin 1) :=
    funext fun a => Fin.ext (by match a with | ⟨0, _⟩ => rfl | ⟨1, _⟩ => rfl)
  have e52r : ridx_main_v52 (ix2 p (0 : Fin 1)) 0 = ix2 (0 : Fin 1) (0 : Fin 1) :=
    funext fun a => Fin.ext (by match a with | ⟨0, _⟩ => rfl | ⟨1, _⟩ => rfl)
  -- the scalar bias is read at its only index
  have e54 : idx_main_v53 (idx_main_v54 (ix2 p (0 : Fin 1))) = ix1 (0 : Fin 1) :=
    funext fun a => Fin.ext (by match a with | ⟨0, _⟩ => rfl)
  -- the column of row sums is read at row p, and the sum over the 32 hidden columns runs along row p
  have e49 : idx_main_v49 (ix2 p (0 : Fin 1)) = ix1 p :=
    funext fun a => Fin.ext (by match a with | ⟨0, _⟩ => rfl)
  have e48 : ∀ k : Fin 32, idx_main_v48 (ix1 p) k = ix2 p k := fun k =>
    funext fun a => Fin.ext (by match a with | ⟨0, _⟩ => rfl | ⟨1, _⟩ => rfl)
  -- from the quotient 1 / (1 + exp (-x)) down to the sum of the hidden activations; a sum over one index is its term
  rw [val_main_v61_apply, val_main_v60_apply, val_main_cst_13_apply, val_main_v59_apply, val_main_v58_apply,
    val_main_cst_12_apply, val_main_v57_apply, val_main_v56_apply, val_main_v55_apply, val_main_v52_apply,
    Fin.sum_univ_one, e52l, e52r, val_main_v54_apply, val_main_v53_apply, e54, val_main_v51_apply, val_main_v49_apply,
    e49, val_main_v50_apply, val_main_cst_11_apply, val_main_v48_apply, val_main_cst_10_apply]
  simp only [e48, hidden2_entry]
  show _ = Cert.Spec.score _ _ _ _ _ p
  simp only [Ideal.hostDivf_def, Ideal.addf_def, Ideal.hostNegf_def, Ideal.negf_def, Ideal.hostUnary_exp_def,
    Ideal.ofBits_def]
  -- the sum starts from the zero word, which is zero, and the word 0x3F800000 is one
  rw [Ideal.ofBits_zero_f32, zero_add, ofBits_one_f32]
  -- the logistic function on the extended reals is this quotient by definition
  simp only [Cert.Spec.score, Ideal.logistic]

end Cert.RefValue

end
-- ==== Proof.lean ====
/-
  A two-layer graph network for link prediction, its dense layers as two TensorCore kernels, against the plain
  array program.

  Both programs average, for every node, the feature rows arriving along its incoming edges (a host gather, a host
  scatter-add and a division by the in-degree, at least one); apply `max (· W₁ + b₁) 0`; average along the edges
  again; apply `max (· W₂ + b₂) 0`, take each row's mean over its 32 columns, apply the 1 × 1 map `· wd + bd`, and the
  logistic function. The kernel program runs each dense layer as a grid of 50 row blocks of 2000 rows, the reference
  as one whole matrix product. Over the extended reals the narrowing of the matrix operands is the identity, a
  product accumulated into zero is the plain sum, a sum of one term is the term, and the logistic function is by
  definition `1 / (1 + exp (-x))`; so both programs compute the one function `Cert.Agg.G` of the nine arguments, the
  aggregation carried unopened. No law used needs the inputs to be finite.

  The kernel side: the run with its result named (KernelRun), the result as `G` of the launch memory (KernelValue,
  over Region0, Region1 and KernelHost). The reference side: its generated run, read stage by stage (RefValue).
-/
import proofs.«149629_j18442589569957_1_alg».proof.Defs
import proofs.«149629_j18442589569957_1_alg».proof.Proof.Gen.Kernel
import proofs.«149629_j18442589569957_1_alg».proof.Proof.Gen.Kernel.Skeleton
import proofs.«149629_j18442589569957_1_alg».proof.Proof.Gen.Kernel.Launch
import proofs.«149629_j18442589569957_1_alg».proof.Proof.Gen.Kernel.Points
import proofs.«149629_j18442589569957_1_alg».proof.Proof.Gen.Kernel.Frame
import proofs.«149629_j18442589569957_1_alg».proof.Proof.Gen.KernelIdeal
import proofs.«149629_j18442589569957_1_alg».proof.Proof.Gen.KernelIdeal.Skeleton
import proofs.«149629_j18442589569957_1_alg».proof.Proof.Gen.KernelIdeal.Launch
import proofs.«149629_j18442589569957_1_alg».proof.Proof.Gen.KernelIdeal.Points
import proofs.«149629_j18442589569957_1_alg».proof.Proof.Gen.KernelIdeal.Frame
import proofs.«149629_j18442589569957_1_alg».proof.Proof.Gen.ReferenceIdeal
import proofs.«149629_j18442589569957_1_alg».proof.Proof.Gen.Pre_finite_inputs
import proofs.«149629_j18442589569957_1_alg».proof.Proof.Gen.ReferenceIdeal.Run
import proofs.«149629_j18442589569957_1_alg».proof.Proof.Gen.ReferenceIdeal.Read
import proofs.«149629_j18442589569957_1_alg».proof.Proof.KernelRun
import proofs.«149629_j18442589569957_1_alg».proof.Proof.KernelValue
import proofs.«149629_j18442589569957_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with `G` of those arguments in their result
    buffers. -/
theorem algebraic : Cert.algebraic_KernelIdeal_ReferenceIdeal := by
  intro m ρ m' ρ' _ hagree
  refine ⟨fun c => Cert.Agg.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Val.W4_v35 m ρ c), (h c).2⟩)
      (Cert.KernelIdeal.Run.run_named (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6, h7, h8⟩ := hagree c
    rw [(h c).1, Cert.ReferenceIdeal.Read.val_main_v61_eq, Cert.RefValue.ref_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
